-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S1024x1024 : Shape := ⟨2, ![1024, 1024]⟩
abbrev S1024 : Shape := ⟨1, ![1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16x4096x1024 .f32) (main_arg1 : FVec F S1024x1024 .f32) (main_arg2 : FVec F S1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S16x4096x1024 : Shape := ⟨3, ![16, 4096, 1024]⟩
abbrev S1024x1024 : Shape := ⟨2, ![1024, 1024]⟩
abbrev S1024 : Shape := ⟨1, ![1024]⟩
abbrev S1x1024 : Shape := ⟨2, ![1, 1024]⟩
abbrev S16x1x1024 : Shape := ⟨3, ![16, 1, 1024]⟩
abbrev S1x4096x1024 : Shape := ⟨3, ![1, 4096, 1024]⟩
abbrev S1x1x1024 : Shape := ⟨3, ![1, 1, 1024]⟩
abbrev S4096x1024 : Shape := ⟨2, ![4096, 1024]⟩
abbrev S128x1024 : Shape := ⟨2, ![128, 1024]⟩
abbrev S16x1024 : Shape := ⟨2, ![16, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1x1024, .f32⟩
  | .hbm, ⟨5, _⟩ => ⟨S16x1x1024, .f32⟩
  | .hbm, ⟨6, _⟩ => ⟨S16x1024, .f32⟩
  | .local _ .vmem, ⟨0, _⟩ => ⟨S1x4096x1024, .f32⟩
  | .local _ .vmem, ⟨1, _⟩ => ⟨S1x4096x1024, .f32⟩
  | .local _ .vmem, ⟨2, _⟩ => ⟨S1024x1024, .f32⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_321 : BitVec 32 := 0#32
  let v612 : BitVec 1 := Scalar.cmpi .eq arg1 c0_i32_321
  let v613 : BitVec 32 := Scalar.extui v612
  let c0_i32_322 : BitVec 32 := 0#32
  let v614 : BitVec 1 := Scalar.cmpi .ne v613 c0_i32_322
  v614

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S1024x1024_S1024x1024_1_0 : S1024x1024.Transposes [1, 0] S1024x1024
  shapeCasts_S1024_S1x1024 : S1024.ShapeCasts S1x1024
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  slices_S4096x1024_o0_0_S128x1024 : S4096x1024.Slices ![0, 0] S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  reduces_S128x1024_S1024 : S128x1024.Reduces [0] S1024
  slices_S4096x1024_o128_0_S128x1024 : S4096x1024.Slices ![128, 0] S128x1024
  slices_S4096x1024_o256_0_S128x1024 : S4096x1024.Slices ![256, 0] S128x1024
  slices_S4096x1024_o384_0_S128x1024 : S4096x1024.Slices ![384, 0] S128x1024
  slices_S4096x1024_o512_0_S128x1024 : S4096x1024.Slices ![512, 0] S128x1024
  slices_S4096x1024_o640_0_S128x1024 : S4096x1024.Slices ![640, 0] S128x1024
  slices_S4096x1024_o768_0_S128x1024 : S4096x1024.Slices ![768, 0] S128x1024
  slices_S4096x1024_o896_0_S128x1024 : S4096x1024.Slices ![896, 0] S128x1024
  slices_S4096x1024_o1024_0_S128x1024 : S4096x1024.Slices ![1024, 0] S128x1024
  slices_S4096x1024_o1152_0_S128x1024 : S4096x1024.Slices ![1152, 0] S128x1024
  slices_S4096x1024_o1280_0_S128x1024 : S4096x1024.Slices ![1280, 0] S128x1024
  slices_S4096x1024_o1408_0_S128x1024 : S4096x1024.Slices ![1408, 0] S128x1024
  slices_S4096x1024_o1536_0_S128x1024 : S4096x1024.Slices ![1536, 0] S128x1024
  slices_S4096x1024_o1664_0_S128x1024 : S4096x1024.Slices ![1664, 0] S128x1024
  slices_S4096x1024_o1792_0_S128x1024 : S4096x1024.Slices ![1792, 0] S128x1024
  slices_S4096x1024_o1920_0_S128x1024 : S4096x1024.Slices ![1920, 0] S128x1024
  slices_S4096x1024_o2048_0_S128x1024 : S4096x1024.Slices ![2048, 0] S128x1024
  slices_S4096x1024_o2176_0_S128x1024 : S4096x1024.Slices ![2176, 0] S128x1024
  slices_S4096x1024_o2304_0_S128x1024 : S4096x1024.Slices ![2304, 0] S128x1024
  slices_S4096x1024_o2432_0_S128x1024 : S4096x1024.Slices ![2432, 0] S128x1024
  slices_S4096x1024_o2560_0_S128x1024 : S4096x1024.Slices ![2560, 0] S128x1024
  slices_S4096x1024_o2688_0_S128x1024 : S4096x1024.Slices ![2688, 0] S128x1024
  slices_S4096x1024_o2816_0_S128x1024 : S4096x1024.Slices ![2816, 0] S128x1024
  slices_S4096x1024_o2944_0_S128x1024 : S4096x1024.Slices ![2944, 0] S128x1024
  slices_S4096x1024_o3072_0_S128x1024 : S4096x1024.Slices ![3072, 0] S128x1024
  slices_S4096x1024_o3200_0_S128x1024 : S4096x1024.Slices ![3200, 0] S128x1024
  slices_S4096x1024_o3328_0_S128x1024 : S4096x1024.Slices ![3328, 0] S128x1024
  slices_S4096x1024_o3456_0_S128x1024 : S4096x1024.Slices ![3456, 0] S128x1024
  slices_S4096x1024_o3584_0_S128x1024 : S4096x1024.Slices ![3584, 0] S128x1024
  slices_S4096x1024_o3712_0_S128x1024 : S4096x1024.Slices ![3712, 0] S128x1024
  slices_S4096x1024_o3840_0_S128x1024 : S4096x1024.Slices ![3840, 0] S128x1024
  slices_S4096x1024_o3968_0_S128x1024 : S4096x1024.Slices ![3968, 0] S128x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S16x1x1024_S16x1024 : S16x1x1024.ShapeCasts S16x1024
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x1024.size a ≤ S16x4096x1024.size a
  hwx0_0 : ∀ i : grid0.Coords, EltTy.bits .f32 = 32 ∨ (Rect.block (s := S16x4096x1024) S1x4096x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S16x1x1024.size a
  hwx0_3 : ∀ i : grid0.Coords, EltTy.bits .f32 = 32 ∨ (Rect.block (s := S16x1x1024) S1x1x1024.size (cc0_transform_3 i) (hinb0_3 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S1x4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S16x4096x1024 : Shape := ⟨3, ![16, 4096, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S16x1024 : Shape := ⟨2, ![16, 1024]⟩
abbrev S16x1x1024 : Shape := ⟨3, ![16, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x1024, .f32⟩
  | .hbm, ⟨2, _⟩ => ⟨S1024, .f32⟩
  | .hbm, ⟨3, _⟩ => ⟨S16x4096x1024, .f32⟩
  | .hbm, ⟨4, _⟩ => ⟨S1x1x1024, .f32⟩
  | .hbm, ⟨5, _⟩ => ⟨S16x4096x1024, .f32⟩
  | .hbm, ⟨6, _⟩ => ⟨S16x4096x1024, .f32⟩
  | .hbm, ⟨7, _⟩ => ⟨S16x4096x1024, .f32⟩
  | .hbm, ⟨8, _⟩ => ⟨S_, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1x1024, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S_, .f32⟩
  | .hbm, ⟨18, _⟩ => ⟨S16x1024, .f32⟩
  | .hbm, ⟨19, _⟩ => ⟨S16x1x1024, .f32⟩
  | .hbm, ⟨20, _⟩ => ⟨S16x4096x1024, .f32⟩
  | .hbm, ⟨21, _⟩ => ⟨S16x4096x1024, .f32⟩
  | .hbm, ⟨22, _⟩ => ⟨S16x4096x1024, .f32⟩
  | .hbm, ⟨23, _⟩ => ⟨S_, .f32⟩
  | .hbm, ⟨24, _⟩ => ⟨S16x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x4096x1024_0_1_2 : S1x1x1024.BroadcastsInDim S16x4096x1024 (![0, 1, 2] : Fin 3 → Fin S16x4096x1024.rank)
  reducesTo_S16x4096x1024_S16x1024_d1 : S16x4096x1024.ReducesTo [1] S16x1024
  h_S_ : 0 < S_.numel
  bcast_S_S16x1024 : S_.BroadcastsInDim S16x1024 (![] : Fin 0 → Fin S16x1024.rank)
  bcast_S16x1024_S16x1x1024_0_2 : S16x1024.BroadcastsInDim S16x1x1024 (![0, 2] : Fin 2 → Fin S16x1x1024.rank)
  bcast_S16x1x1024_S16x4096x1024_0_1_2 : S16x1x1024.BroadcastsInDim S16x4096x1024 (![0, 1, 2] : Fin 3 → Fin S16x4096x1024.rank)
  dot_S16x4096x1024_S1024x1024_S16x4096x1024_2_1_01_0_n_n_wf : DotDims.WF S16x4096x1024 S1024x1024 S16x4096x1024 [2] [1] [0, 1] [0] [] []

variable [Facts₀]

def dot_S16x4096x1024_S1024x1024_S16x4096x1024_2_1_01_0_n_n : DotDims S16x4096x1024 S1024x1024 S16x4096x1024 where
  lhsContracting := [2]
  rhsContracting := [1]
  lhsNonContracting := [0, 1]
  rhsNonContracting := [0]
  lhsBatch := []
  rhsBatch := []
  wf := dot_S16x4096x1024_S1024x1024_S16x4096x1024_2_1_01_0_n_n_wf

class Facts : Prop extends Facts₀ where

variable [Facts]
-- ==== Proof.Spec.lean ====
/-
  Attention pooling over the sequence axis, as plain functions of coordinates on the extended reals.

  For an input `X` of shape [16, 4096, 1024], a weight matrix `W` of shape [1024, 1024] (row `o` holds the weights of
  output channel `o`) and a bias `β`:
    energy b s o = tanh (∑ k, X b s k * W o k + β o)          -- a linear layer followed by tanh
    weight b s o = exp (energy b s o)
    pooled b o   = (∑ s, weight b s o * X b s o) / (∑ s, weight b s o)
  `pooled` is the softmax over the sequence axis `s` of the energies, used as weights to average `X b · o`.
  `softmaxPooled` is the same average written as a numerically shifted softmax: every energy has a shift `M b o`
  subtracted before the exponential, each weight is divided by the sum of the shifted exponentials first, and the
  quotients are then multiplied by `X` and summed. For real inputs and a real shift the two agree (PoolLaw.lean):
  the factor exp (−M) cancels between numerator and denominator, and the division distributes over the finite sum.
-/
import Idealize.ShloMosaic.PureOps.Ideal
import Idealize.ShloMosaic.Lib.ValueIdx

noncomputable section

namespace Cert.AttnPool

open Idealize.ShloMosaic Idealize.ShloMosaic.ValueIdx

/-- An extended real that is a real number (neither infinity). -/
def IsReal (x : EReal) : Prop := ∃ r : ℝ, x = (r : EReal)

variable (X : Fin 16 → Fin 4096 → Fin 1024 → EReal) (W : Fin 1024 → Fin 1024 → EReal) (β : Fin 1024 → EReal)

/-- The energy of position `s` for output channel `o`: the linear layer's output through tanh. -/
def energy (b : Fin 16) (s : Fin 4096) (o : Fin 1024) : EReal :=
  Ideal.tanh ((∑ k : Fin 1024, X b s k * W o k) + β o)

/-- The unnormalised softmax weight of position `s`. -/
def weight (b : Fin 16) (s : Fin 4096) (o : Fin 1024) : EReal :=
  Ideal.exp (energy X W β b s o)

/-- The weighted average of `X b · o` over the sequence, as one quotient of two sums. -/
def pooled (b : Fin 16) (o : Fin 1024) : EReal :=
  Ideal.div (∑ s : Fin 4096, weight X W β b s o * X b s o) (∑ s : Fin 4096, weight X W β b s o)

/-- The same average as a shifted softmax: normalise each shifted weight first, then multiply by `X` and sum. -/
def softmaxPooled (M : Fin 16 → Fin 1024 → EReal) (b : Fin 16) (o : Fin 1024) : EReal :=
  ∑ s : Fin 4096,
    Ideal.div (Ideal.exp (energy X W β b s o - M b o)) (∑ s' : Fin 4096, Ideal.exp (energy X W β b s' o - M b o))
      * X b s o

/-! ## Arrays as functions of coordinates -/

/-- A [16, 4096, 1024] array as a function of its three coordinates. -/
def cur3 (x : (⟨3, ![16, 4096, 1024]⟩ : Shape).Idx → EReal) : Fin 16 → Fin 4096 → Fin 1024 → EReal :=
  fun b s k => x (ix3 b s k)

/-- A [1024, 1024] array as a function of its two coordinates. -/
def cur2 (x : (⟨2, ![1024, 1024]⟩ : Shape).Idx → EReal) : Fin 1024 → Fin 1024 → EReal :=
  fun o k => x (ix2 o k)

/-- A [1024] array as a function of its coordinate. -/
def cur1 (x : (⟨1, ![1024]⟩ : Shape).Idx → EReal) : Fin 1024 → EReal :=
  fun o => x (ix1 o)

/-- The pooled result as a [16, 1024] array of the three argument arrays. -/
def pooledArr (x0 : (⟨3, ![16, 4096, 1024]⟩ : Shape).Idx → EReal) (x1 : (⟨2, ![1024, 1024]⟩ : Shape).Idx → EReal)
    (x2 : (⟨1, ![1024]⟩ : Shape).Idx → EReal) : (⟨2, ![16, 1024]⟩ : Shape).Idx → EReal :=
  fun i => pooled (cur3 x0) (cur2 x1) (cur1 x2) (i 0) (i 1)

end Cert.AttnPool

end
-- ==== Proof.PoolLaw.lean ====
/-
  The shifted softmax average is the plain quotient of sums.

  With every input real, each energy is the coercion of a real number e s, each weight the coercion of the positive real
  exp (e s), and the shift the coercion of a real μ. Over the reals exp (e s - μ) = exp (e s) * exp (-μ), so the shifted
  denominator is (∑ s, exp (e s)) * exp (-μ); the common positive factor exp (-μ) cancels in every quotient, and the
  division by the (positive) sum of weights distributes over the finite sum. The three lemmas below carry this out for
  an arbitrary nonempty finite index type; the theorem instantiates it at the sequence axis.
-/
import proofs.«129163_g85633057947969_feedfinal_228_23_alg».proof.Proof.Spec
import Mathlib.Data.EReal.Operations
import Mathlib.Analysis.SpecialFunctions.Exp
import Mathlib.Algebra.BigOperators.Field
import Mathlib.Algebra.Order.BigOperators.Ring.Finset
import Mathlib.Tactic.FieldSimp

noncomputable section

namespace Cert.AttnPool

open Idealize.ShloMosaic

/-- The coercion of a finite sum of reals is the sum of the coercions. -/
private theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Over the reals: subtracting a common shift from every exponent leaves the normalised weighted sum unchanged. -/
private theorem real_shift_cancel {ι : Type*} [Fintype ι] [Nonempty ι] (e x : ι → ℝ) (μ : ℝ) :
    ∑ s, Real.exp (e s - μ) * (1 / ∑ s', Real.exp (e s' - μ)) * x s
      = (∑ s, Real.exp (e s) * x s) * (1 / ∑ s, Real.exp (e s)) := by
  have hc : Real.exp (-μ) ≠ 0 := (Real.exp_pos _).ne'
  have hD : (∑ s, Real.exp (e s)) ≠ 0 :=
    (Finset.sum_pos (fun i _ => Real.exp_pos (e i)) Finset.univ_nonempty).ne'
  have h1 : ∀ s, Real.exp (e s - μ) = Real.exp (e s) * Real.exp (-μ) := fun s => by
    rw [sub_eq_add_neg, Real.exp_add]
  have hD' : ∑ s', Real.exp (e s') * Real.exp (-μ) = (∑ s', Real.exp (e s')) * Real.exp (-μ) := by
    rw [Finset.sum_mul]
  rw [Finset.sum_mul]
  simp only [h1]
  rw [hD']
  refine Finset.sum_congr rfl fun s _ => ?_
  field_simp

/-- The same on the extended reals, for real energies, real values and a real shift. -/
private theorem ereal_shift_cancel {ι : Type*} [Fintype ι] [Nonempty ι] (e x : ι → ℝ) (μ : ℝ) :
    (∑ s, Ideal.div (Ideal.exp ((e s : EReal) - (μ : EReal))) (∑ s', Ideal.exp ((e s' : EReal) - (μ : EReal)))
        * (x s : EReal))
      = Ideal.div (∑ s, Ideal.exp (e s : EReal) * (x s : EReal)) (∑ s, Ideal.exp (e s : EReal)) := by
  have hD' : (∑ s', Real.exp (e s' - μ)) ≠ 0 :=
    (Finset.sum_pos (fun i _ => Real.exp_pos (e i - μ)) Finset.univ_nonempty).ne'
  have hD : (∑ s, Real.exp (e s)) ≠ 0 :=
    (Finset.sum_pos (fun i _ => Real.exp_pos (e i)) Finset.univ_nonempty).ne'
  simp only [← EReal.coe_sub, Ideal.exp_coe, ← EReal.coe_mul, ← coe_finset_sum]
  rw [Ideal.div_coe hD]
  simp only [Ideal.div_coe hD', ← EReal.coe_mul, ← coe_finset_sum]
  rw [real_shift_cancel]

/-- For real inputs and a real shift, the shifted-softmax form of the weighted average equals the quotient of sums. -/
theorem softmaxPooled_eq (X : Fin 16 → Fin 4096 → Fin 1024 → EReal) (W : Fin 1024 → Fin 1024 → EReal)
    (β : Fin 1024 → EReal) (hX : ∀ b s k, IsReal (X b s k)) (hW : ∀ o k, IsReal (W o k)) (hβ : ∀ o, IsReal (β o))
    (M : Fin 16 → Fin 1024 → EReal) (hM : ∀ b o, IsReal (M b o)) (b : Fin 16) (o : Fin 1024) :
    softmaxPooled X W β M b o = pooled X W β b o := by
  choose x hx using hX
  choose w hw using hW
  choose c hc using hβ
  choose m hm using hM
  -- every energy is the coercion of a real
  have hE : ∀ s, energy X W β b s o = ((Real.tanh ((∑ k, x b s k * w o k) + c o) : ℝ) : EReal) := by
    intro s
    have hsum : (∑ k : Fin 1024, X b s k * W o k) = ((∑ k : Fin 1024, x b s k * w o k : ℝ) : EReal) := by
      rw [coe_finset_sum]
      refine Finset.sum_congr rfl fun k _ => ?_
      rw [hx, hw, EReal.coe_mul]
    unfold energy
    rw [hsum, hc, ← EReal.coe_add, Ideal.tanh_coe]
  unfold softmaxPooled pooled weight
  simp only [hE, hm, hx]
  exact ereal_shift_cancel _ _ _

end Cert.AttnPool

end
-- ==== Proof.Finite.lean ====
/-
  From the precondition "every input entry is finite" to "every input entry is a real number".

  The predicate is the conjunction of three tests, one per array: the conjunction over all indices i of |x i| < +∞,
  where |a| is max a (-a) on the extended reals and +∞ is the value of the f32 pattern 0x7F800000. A conjunction of
  one-bit words is 1 exactly when each word is 1, so each test gives |x i| < ⊤ at every index. Of the three kinds of
  extended real, ⊥ and ⊤ both have max a (-a) = ⊤, which is not below ⊤; what is left is the coercion of a real.
-/
import proofs.«129163_g85633057947969_feedfinal_228_23_alg».proof.Proof.Spec
import proofs.«129163_g85633057947969_feedfinal_228_23_alg».proof.Pre_finite_inputs
import Idealize.ShloMosaic.Lib.ReduceAll

noncomputable section

namespace Cert.Pre_finite_inputs.Finite

open Cert.Pre_finite_inputs Idealize.ShloMosaic Idealize.ShloMosaic.ValueIdx Cert.AttnPool

/-- The rank-0 shape has exactly one index: two indices are functions on the empty type. -/
local instance : Subsingleton S_.Idx := ⟨fun a b => funext fun d => d.elim0⟩

/-- The f32 pattern 0x7F800000 (sign 0, exponent all ones, fraction 0) denotes +∞. -/
theorem inf_eq_top : Ideal.ofBits .f32 0x7F800000#32 = (⊤ : EReal) := by simp [Ideal.ofBits, Ideal.ieee]

/-- An extended real whose absolute value max a (-a) is strictly below +∞ is a real number:
    at ⊥ and at ⊤ the maximum is ⊤, which is not below itself. -/
theorem isReal_of_abs_lt_top (a : EReal) (h : Ideal.cmp .olt (max a (-a)) ⊤ = 1#1) : IsReal a := by
  induction a using EReal.rec with
  | bot => simp [Ideal.cmp] at h
  | top => simp [Ideal.cmp] at h
  | coe r => exact ⟨r, rfl⟩

/-- One test of the predicate, over any shape: if the conjunction over all indices of |x i| < +∞ is 1,
    then the comparison is 1 at each index, so every entry of x is a real number. -/
theorem all_real {s : Shape} {axes : List (Fin s.rank)} (dims : Fin S_.rank → Fin s.rank)
    (hb : S_.BroadcastsInDim s dims) (hr : s.ReducesTo axes S_) (hu : 0 < S_.numel) (x : FVec Ideal s .f32)
    (e : Host.reduce IntOp.andi
          (cmpf .olt (Host.absf x) (broadcastInDim s dims hb (constant (F := Ideal) S_ .f32 0x7F800000#32)))
          (constantI S_ 1 1#1) hr hu ix0 = 1#1) :
    ∀ i, IsReal (x i) := by
  intro i
  have h1 := Host.reduce_andi_all _ _ hr hu ix0 e i
  -- at index i the compared words are max (x i) (-(x i)) and the constant, whatever index the broadcast reads
  have h2 : Ideal.cmp .olt (max (x i) (-(x i))) (Ideal.ofBits .f32 0x7F800000#32) = 1#1 := h1
  rw [inf_eq_top] at h2
  exact isReal_of_abs_lt_top _ h2

variable [Cert.Pre_finite_inputs.Facts]

/-- If the printed precondition evaluates to all ones on three arrays of extended reals, every entry of each is real. -/
theorem real_of_pre (x0 : FVec Ideal S16x4096x1024 .f32) (x1 : FVec Ideal S1024x1024 .f32) (x2 : FVec Ideal S1024 .f32)
    (h : Cert.Pre_finite_inputs.fn (F := Ideal) x0 x1 x2 = fun _ => 1#1) :
    (∀ i, IsReal (x0 i)) ∧ (∀ i, IsReal (x1 i)) ∧ (∀ i, IsReal (x2 i)) := by
  have h0 := congrFun h ix0
  dsimp only [Cert.Pre_finite_inputs.fn] at h0
  -- the result is (t0 ∧ t1) ∧ t2 on one-bit words: each of the three tests is 1
  obtain ⟨h01, h2⟩ := IntOp.andi_eq_one.1 h0
  obtain ⟨h0', h1⟩ := IntOp.andi_eq_one.1 h01
  exact ⟨all_real _ _ _ _ x0 h0', all_real _ _ _ _ x1 h1, all_real _ _ _ _ x2 h2⟩

end Cert.Pre_finite_inputs.Finite

end
-- ==== Proof.RefValue.lean ====
/-
  The reference's result read at an index: each stage of the reference at literal coordinates (b, s, o), the result as
  the shifted-softmax average, and the shift (the maximum of the energies over the sequence) as a real number.
-/
import proofs.«129163_g85633057947969_feedfinal_228_23_alg».proof.Proof.Spec
import proofs.«129163_g85633057947969_feedfinal_228_23_alg».proof.Proof.Gen.ReferenceIdeal.Read

noncomputable section

namespace Cert.ReferenceIdeal.RefValue

open Cert.ReferenceIdeal Cert.ReferenceIdeal.Gen Idealize.ShloMosaic Idealize.ShloMosaic.ValueIdx Cert.AttnPool

/-- The shift the reference subtracts from the energies of batch `b`, channel `o`: its stage `main_v7`
    (the maximum over the sequence axis, joined with −∞) read at (b, o). -/
def shift (x0 : (⟨S16x4096x1024, .f32⟩ : BufTy).Contents (Elt Ideal)) (x1 : (⟨S1024x1024, .f32⟩ : BufTy).Contents (Elt Ideal))
    (x2 : (⟨S1024, .f32⟩ : BufTy).Contents (Elt Ideal)) : Fin 16 → Fin 1024 → EReal :=
  fun b o => Read.val_main_v7 (F := Ideal) x0 x1 x2 (ix2 b o)

section Stages

variable (x0 : (⟨S16x4096x1024, .f32⟩ : BufTy).Contents (Elt Ideal)) (x1 : (⟨S1024x1024, .f32⟩ : BufTy).Contents (Elt Ideal))
    (x2 : (⟨S1024, .f32⟩ : BufTy).Contents (Elt Ideal))

/-! ## The stages of the reference read at literal coordinates -/

/-- The energy stage of the reference read at (b, s, o) is the specification's energy. -/
theorem v4_eq (b : Fin 16) (s : Fin 4096) (o : Fin 1024) :
    Read.val_main_v4 (F := Ideal) x0 x1 x2 (ix3 b s o) = energy (cur3 x0) (cur2 x1) (cur1 x2) b s o := by
  rw [Read.val_main_v4_apply, Read.val_main_v3_apply, Read.val_main_v0_apply, Read.val_main_v2_apply,
    Read.val_main_v1_apply, Ideal.hostUnary_tanh_def, Ideal.addf_def]
  have e1 : ∀ k : Fin 1024, Read.lidx_main_v0 (ix3 b s o) k = ix3 b s k := fun k =>
    funext fun a => Fin.ext (by match a with | ⟨0, _⟩ => rfl | ⟨1, _⟩ => rfl | ⟨2, _⟩ => rfl)
  have e2 : ∀ k : Fin 1024, Read.ridx_main_v0 (ix3 b s o) k = ix2 o k := fun k =>
    funext fun a => Fin.ext (by match a with | ⟨0, _⟩ => rfl | ⟨1, _⟩ => rfl)
  have e3 : Read.idx_main_v1 (Read.idx_main_v2 (ix3 b s o)) = ix1 o :=
    funext fun a => Fin.ext (by match a with | ⟨0, _⟩ => rfl)
  rw [e3]
  simp only [e1, e2]
  rfl

/-- The broadcast shift read at (b, s, o) is the shift of (b, o), whatever the position s. -/
theorem v9_eq (b : Fin 16) (s : Fin 4096) (o : Fin 1024) :
    Read.val_main_v9 (F := Ideal) x0 x1 x2 (ix3 b s o) = shift x0 x1 x2 b o := by
  rw [Read.val_main_v9_apply, Read.val_main_v8_apply]
  have e : Read.idx_main_v8 (Read.idx_main_v9 (ix3 b s o)) = ix2 b o :=
    funext fun a => Fin.ext (by match a with | ⟨0, _⟩ => rfl | ⟨1, _⟩ => rfl)
  rw [e]
  rfl

/-- The shifted exponential read at (b, s, o). -/
theorem v11_eq (b : Fin 16) (s : Fin 4096) (o : Fin 1024) :
    Read.val_main_v11 (F := Ideal) x0 x1 x2 (ix3 b s o)
      = Ideal.exp (energy (cur3 x0) (cur2 x1) (cur1 x2) b s o - shift x0 x1 x2 b o) := by
  rw [Read.val_main_v11_apply, Read.val_main_v10_apply, Ideal.hostUnary_exp_def, Ideal.subf_def, v4_eq, v9_eq]

/-- The sum of the shifted exponentials over the sequence, read at (b, o). -/
theorem v12_eq (b : Fin 16) (o : Fin 1024) :
    Read.val_main_v12 (F := Ideal) x0 x1 x2 (ix2 b o)
      = ∑ s' : Fin 4096, Ideal.exp (energy (cur3 x0) (cur2 x1) (cur1 x2) b s' o - shift x0 x1 x2 b o) := by
  rw [Read.val_main_v12_apply, Read.val_main_cst_1_apply, Ideal.ofBits_def, Ideal.ofBits_zero_f32, zero_add]
  refine Finset.sum_congr rfl fun k _ => ?_
  have e : Read.idx_main_v12 (ix2 b o) k = ix3 b k o :=
    funext fun a => Fin.ext (by match a with | ⟨0, _⟩ => rfl | ⟨1, _⟩ => rfl | ⟨2, _⟩ => rfl)
  rw [e, v11_eq]

/-- The broadcast normaliser read at (b, s, o) is the sum of (b, o). -/
theorem v14_eq (b : Fin 16) (s : Fin 4096) (o : Fin 1024) :
    Read.val_main_v14 (F := Ideal) x0 x1 x2 (ix3 b s o) = Read.val_main_v12 (F := Ideal) x0 x1 x2 (ix2 b o) := by
  rw [Read.val_main_v14_apply, Read.val_main_v13_apply]
  have e : Read.idx_main_v13 (Read.idx_main_v14 (ix3 b s o)) = ix2 b o :=
    funext fun a => Fin.ext (by match a with | ⟨0, _⟩ => rfl | ⟨1, _⟩ => rfl)
  rw [e]

/-- The normalised weight times the input, read at (b, s, o). -/
theorem v16_eq (b : Fin 16) (s : Fin 4096) (o : Fin 1024) :
    Read.val_main_v16 (F := Ideal) x0 x1 x2 (ix3 b s o)
      = Ideal.div (Ideal.exp (energy (cur3 x0) (cur2 x1) (cur1 x2) b s o - shift x0 x1 x2 b o))
          (∑ s' : Fin 4096, Ideal.exp (energy (cur3 x0) (cur2 x1) (cur1 x2) b s' o - shift x0 x1 x2 b o))
        * cur3 x0 b s o := by
  rw [Read.val_main_v16_apply, Read.val_main_v15_apply, Ideal.mulf_def, Ideal.hostDivf_def, v11_eq, v14_eq, v12_eq]
  rfl

/-! ## Real inputs give a real shift -/

/-- A sum of two reals is a real. -/
theorem isReal_add {a c : EReal} (ha : IsReal a) (hc : IsReal c) : IsReal (a + c) := by
  obtain ⟨r, rfl⟩ := ha
  obtain ⟨t, rfl⟩ := hc
  exact ⟨r + t, (EReal.coe_add r t).symm⟩

/-- A product of two reals is a real. -/
theorem isReal_mul {a c : EReal} (ha : IsReal a) (hc : IsReal c) : IsReal (a * c) := by
  obtain ⟨r, rfl⟩ := ha
  obtain ⟨t, rfl⟩ := hc
  exact ⟨r * t, (EReal.coe_mul r t).symm⟩

/-- A finite sum of reals is a real. -/
theorem isReal_sum {ι : Type} (s : Finset ι) (f : ι → EReal) (h : ∀ i ∈ s, IsReal (f i)) :
    IsReal (∑ i ∈ s, f i) := by
  classical
  induction s using Finset.induction_on with
  | empty => exact ⟨0, by rw [Finset.sum_empty, EReal.coe_zero]⟩
  | insert a s ha ih =>
    rw [Finset.sum_insert ha]
    exact isReal_add (h a (Finset.mem_insert_self a s)) (ih fun i hi => h i (Finset.mem_insert_of_mem hi))

/-- The hyperbolic tangent of a real is a real. -/
theorem isReal_tanh {a : EReal} (ha : IsReal a) : IsReal (Ideal.tanh a) := by
  obtain ⟨r, rfl⟩ := ha
  exact ⟨Real.tanh r, Ideal.tanh_coe r⟩

/-- The maximum, joined with −∞, of a nonempty finite family of reals is a real: it lies strictly
    between −∞ (some member is above it) and +∞ (every member and −∞ are below it). -/
theorem isReal_fold_max {ι : Type} (s : Finset ι) (f : ι → EReal) (hs : s.Nonempty)
    (h : ∀ i ∈ s, IsReal (f i)) : IsReal (s.fold max ⊥ f) := by
  have hlt : s.fold max ⊥ f < ⊤ :=
    (Finset.fold_max_lt ⊤).2 ⟨bot_lt_top, fun i hi => by
      obtain ⟨r, hr⟩ := h i hi
      rw [hr]
      exact EReal.coe_lt_top r⟩
  have hgt : ⊥ < s.fold max ⊥ f := by
    obtain ⟨i, hi⟩ := hs
    refine (Finset.lt_fold_max ⊥).2 (Or.inr ⟨i, hi, ?_⟩)
    obtain ⟨r, hr⟩ := h i hi
    rw [hr]
    exact EReal.bot_lt_coe r
  exact ⟨(s.fold max ⊥ f).toReal, (EReal.coe_toReal hlt.ne hgt.ne').symm⟩

/-- The bit pattern 0xFF800000 denotes −∞. -/
theorem ofBits_negInf : Ideal.ofBits .f32 0xFF800000#32 = (⊥ : EReal) := by
  simp [Ideal.ofBits, Ideal.ieee]

/-- For real inputs the energy stage is real at every index: a tanh of a finite sum of products of reals plus a real. -/
theorem v4_real (h0 : ∀ i, IsReal (x0 i)) (h1 : ∀ i, IsReal (x1 i)) (h2 : ∀ i, IsReal (x2 i)) (i : S16x4096x1024.Idx) :
    IsReal (Read.val_main_v4 (F := Ideal) x0 x1 x2 i) := by
  rw [Read.val_main_v4_apply, Read.val_main_v3_apply, Read.val_main_v0_apply, Read.val_main_v2_apply,
    Read.val_main_v1_apply, Ideal.hostUnary_tanh_def, Ideal.addf_def]
  exact isReal_tanh (isReal_add (isReal_sum _ _ fun k _ => isReal_mul (h0 _) (h1 _)) (h2 _))

end Stages

/-- For real inputs the shift is a real number. -/
theorem shift_real (x0 : (⟨S16x4096x1024, .f32⟩ : BufTy).Contents (Elt Ideal)) (x1 : (⟨S1024x1024, .f32⟩ : BufTy).Contents (Elt Ideal))
    (x2 : (⟨S1024, .f32⟩ : BufTy).Contents (Elt Ideal))
    (h0 : ∀ i, IsReal (x0 i)) (h1 : ∀ i, IsReal (x1 i)) (h2 : ∀ i, IsReal (x2 i)) (b : Fin 16) (o : Fin 1024) :
    IsReal (shift x0 x1 x2 b o) := by
  have hr : S16x4096x1024.Reduces [1] S16x1024 := by decide
  unfold shift
  rw [Read.val_main_v7_apply, Read.val_main_v6_apply, Read.val_main_cst_0_apply, Ideal.maximumf_def, Ideal.ofBits_def,
    ofBits_negInf, bot_sup_eq]
  unfold Read.val_main_v5
  rw [Host.reduce_eq_fold_single FloatOps.maximumf _ _ reducesTo_S16x4096x1024_S16x1024_d1 hr h_S_,
    Read.val_main_cst_apply, Ideal.ofBits_def, ofBits_negInf]
  exact isReal_fold_max _ _ ⟨⟨0, by decide⟩, Finset.mem_univ _⟩ fun k _ => v4_real x0 x1 x2 h0 h1 h2 _

/-- The reference's result at (b, o) is the shifted-softmax average of the argument arrays. -/
theorem result_apply (x0 : (⟨S16x4096x1024, .f32⟩ : BufTy).Contents (Elt Ideal)) (x1 : (⟨S1024x1024, .f32⟩ : BufTy).Contents (Elt Ideal))
    (x2 : (⟨S1024, .f32⟩ : BufTy).Contents (Elt Ideal)) (b : Fin 16) (o : Fin 1024) :
    Read.val_main_v17 (F := Ideal) x0 x1 x2 (ix2 b o)
      = softmaxPooled (cur3 x0) (cur2 x1) (cur1 x2) (shift x0 x1 x2) b o := by
  rw [Read.val_main_v17_apply, Read.val_main_cst_2_apply, Ideal.ofBits_def, Ideal.ofBits_zero_f32, zero_add]
  unfold softmaxPooled
  refine Finset.sum_congr rfl fun k _ => ?_
  have e : Read.idx_main_v17 (ix2 b o) k = ix3 b k o :=
    funext fun a => Fin.ext (by match a with | ⟨0, _⟩ => rfl | ⟨1, _⟩ => rfl | ⟨2, _⟩ => rfl)
  rw [e, v16_eq]

end Cert.ReferenceIdeal.RefValue

end
-- ==== Proof.KernelBody.lean ====
/-
  What the kernel body leaves in the output block, as one function of the three blocks it loads.

  The body walks the 4096 rows of its `x` block in 32 chunks of 128 rows. For the chunk starting at row `off` it forms
    p = exp (tanh (rows · Wᵀblock + bias))            -- a [128, 1024] matrix: one matmul, a row broadcast, tanh, exp
  and two row vectors: the column sums of `p * rows` and of `p`. The 32 pairs are added up in chunk order, the two totals
  are stored in the two scratch rows, read back, divided entry by entry, and the quotient is stored as the output block.
  `chunkNum` / `chunkDen` are one chunk's pair, `numUpTo n` / `denUpTo n` the running sums after chunk `n`, and `body` the
  quotient. `out_eq` says the output block the run leaves is `body` of the loaded blocks: the run's single covering store
  holds exactly this term, its loads being the whole input blocks and the two read-backs the values just stored.
-/
import proofs.«129163_g85633057947969_feedfinal_228_23_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Chunk `n` (rows 128·n … 128·n + 127) lies inside the 4096 rows of the block. -/
theorem chunk_slices (n : ℕ) (hn : n < 32) : S4096x1024.Slices ![128 * n, 0] S128x1024 :=
  ⟨rfl, fun a => by
    match a with
    | ⟨0, _⟩ => show 128 * n + 128 ≤ 4096; omega
    | ⟨1, _⟩ => show 0 + 1024 ≤ 1024; omega⟩

/-- The 128 rows of the `x` block from row `off` on, as a [128, 1024] matrix. -/
def rows (off : ℕ) (h : S4096x1024.Slices ![off, 0] S128x1024) (x0 : Vec F S1x4096x1024 .f32) : FVec F S128x1024 .f32 :=
  extractStridedSlice S128x1024 ![off, 0] (shapeCast S4096x1024 x0 shapeCasts_S1x4096x1024_S4096x1024) h

/-- The chunk's softmax weights before normalisation: exp (tanh (rows · W + bias)). -/
def chunkExp (off : ℕ) (h : S4096x1024.Slices ![off, 0] S128x1024) (x0 : Vec F S1x4096x1024 .f32)
    (x1 : Vec F S1024x1024 .f32) (x2 : Vec F S1x1024 .f32) : FVec F S128x1024 .f32 :=
  exp (tanh (addf
    (matmul dot_S128x1024_S1024x1024_S128x1024_1_0_0_1_n_n none (rows off h x0)
      (shapeCast S1024x1024 x1 shapeCasts_S1024x1024_S1024x1024) (constant S128x1024 .f32 0x00000000#32))
    (broadcastTo S128x1024 (shapeCast S1x1024 x2 shapeCasts_S1x1024_S1x1024) broadcasts_S1x1024_S128x1024)))

/-- The chunk's contribution to the numerator: the column sums of weights times rows, as a [1, 1024] row. -/
def chunkNum (off : ℕ) (h : S4096x1024.Slices ![off, 0] S128x1024) (x0 : Vec F S1x4096x1024 .f32)
    (x1 : Vec F S1024x1024 .f32) (x2 : Vec F S1x1024 .f32) : FVec F S1x1024 .f32 :=
  shapeCast S1x1024 (multiReduction .add [0] S1024 (mulf (chunkExp off h x0 x1 x2) (rows off h x0)) 0x00000000#32
    reduces_S128x1024_S1024 (.inl rfl) rfl) shapeCasts_S1024_S1x1024

/-- The chunk's contribution to the denominator: the column sums of the weights, as a [1, 1024] row. -/
def chunkDen (off : ℕ) (h : S4096x1024.Slices ![off, 0] S128x1024) (x0 : Vec F S1x4096x1024 .f32)
    (x1 : Vec F S1024x1024 .f32) (x2 : Vec F S1x1024 .f32) : FVec F S1x1024 .f32 :=
  shapeCast S1x1024 (multiReduction .add [0] S1024 (chunkExp off h x0 x1 x2) 0x00000000#32
    reduces_S128x1024_S1024 (.inl rfl) rfl) shapeCasts_S1024_S1x1024

/-- The numerator after chunks 0 … n, added in chunk order. -/
def numUpTo (x0 : Vec F S1x4096x1024 .f32) (x1 : Vec F S1024x1024 .f32) (x2 : Vec F S1x1024 .f32) :
    (n : ℕ) → n < 32 → FVec F S1x1024 .f32
  | 0, h => chunkNum (128 * 0) (chunk_slices 0 h) x0 x1 x2
  | n + 1, h => addf (numUpTo x0 x1 x2 n (Nat.lt_of_succ_lt h)) (chunkNum (128 * (n + 1)) (chunk_slices (n + 1) h) x0 x1 x2)

/-- The denominator after chunks 0 … n, added in chunk order. -/
def denUpTo (x0 : Vec F S1x4096x1024 .f32) (x1 : Vec F S1024x1024 .f32) (x2 : Vec F S1x1024 .f32) :
    (n : ℕ) → n < 32 → FVec F S1x1024 .f32
  | 0, h => chunkDen (128 * 0) (chunk_slices 0 h) x0 x1 x2
  | n + 1, h => addf (denUpTo x0 x1 x2 n (Nat.lt_of_succ_lt h)) (chunkDen (128 * (n + 1)) (chunk_slices (n + 1) h) x0 x1 x2)

/-- The output block: the two totals divided entry by entry. -/
def body (x0 : Vec F S1x4096x1024 .f32) (x1 : Vec F S1024x1024 .f32) (x2 : Vec F S1x1024 .f32) : FVec F S1x1x1024 .f32 :=
  shapeCast S1x1x1024
    (divf (shapeCast S1x1024 (numUpTo x0 x1 x2 31 (by decide)) shapeCasts_S1x1024_S1x1024)
      (shapeCast S1x1024 (denUpTo x0 x1 x2 31 (by decide)) shapeCasts_S1x1024_S1x1024))
    shapeCasts_S1x1024_S1x1x1024

set_option maxRecDepth 65536 in
set_option maxHeartbeats 1000000 in
/-- The run's one covering store into the output block holds `body` of the three loaded blocks. -/
theorem out_eq (c : Dev nD) (i : grid0.Coords) (arg2 : Memref sig .tc .vmem S1x4096x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1x1024 .f32) (harg7 : arg7.IsWhole) (hc0 : cond0_0 i) (hc1 : ¬cond0_1 i) (hc2 : cond0_2 i)
    (x0 : Vec F S1x4096x1024 .f32) (x1 : Vec F S1024x1024 .f32) (x2 : Vec F S1x1024 .f32) :
    out0_A_3 c i arg2 harg2 arg3 harg3 arg4 harg4 arg5 harg5 arg6 harg6 arg7 harg7 hc0 hc1 hc2 x0 x1 x2 = body x0 x1 x2 := by
  unfold out0_A_3
  rw [View.read_writes_eq_canon _ _ _ (cover0_A_3 c i arg2 harg2 arg3 harg3 arg4 harg4 arg5 harg5 arg6 harg6 arg7 harg7 hc0 hc1 hc2 x0 x1 x2)]
  unfold kernelRun0_A
  dsimp only
  sl_unfold_words
  rw [View.canon_unit_zero hz3]
  simp only [View.readCov_unit_zero (S := S1x1024) _ hz2, View.readAt_eq_ld, harg2.read_unread, harg3.read_unread,
    harg4.read_unread, View.ld_unit_zero (S := S1x4096x1024) hz3, View.ld_unit_zero (S := S1024x1024) hz2,
    View.ld_unit_zero (S := S1x1024) hz2]
  rfl

end Cert.KernelIdeal.Body

end
-- ==== Proof.LibMatmulPlain.lean ====
/-
  A plain matrix product read at an index. For dimension numbers that contract axis 1 of an [M, K] left operand with
  axis 0 of a [K, N] right operand (no batch axes), a `tpu.matmul` into the zero accumulator, over the extended reals,
  has at (p, q) the sum over k of left (p, k) times right (k, q).
-/
import Idealize.ShloMosaic.Lib.ValueIdx
import Idealize.ShloMosaic.PureOps.Ideal.Laws

noncomputable section

namespace Cert.LibMatmulPlain

open Idealize.ShloMosaic Idealize.ShloMosaic.ValueIdx

variable {M K N : Nat}

/-- The dimension numbers of a plain product, as a record over its well-formedness evidence. -/
abbrev plainDims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ := ⟨[1], [0], [0], [1], [], [], wf⟩

variable (wf : DotDims.WF (⟨2, ![M, K]⟩ : Shape) ⟨2, ![K, N]⟩ ⟨2, ![M, N]⟩ [1] [0] [0] [1] [] [])

theorem lhs_axis0 (j : (⟨2, ![M, N]⟩ : Shape).Idx) (q : (plainDims wf).contr.Idx) :
    ((plainDims wf).lhsIdx j q 0).val = (j 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl
theorem lhs_axis1 (j : (⟨2, ![M, N]⟩ : Shape).Idx) (q : (plainDims wf).contr.Idx) :
    ((plainDims wf).lhsIdx j q 1).val = (q ⟨0, Nat.one_pos⟩).val :=
  (plainDims wf).lhsIdx_val_of_single rfl j q
theorem rhs_axis0 (j : (⟨2, ![M, N]⟩ : Shape).Idx) (q : (plainDims wf).contr.Idx) :
    ((plainDims wf).rhsIdx j q 0).val = (q ⟨0, Nat.one_pos⟩).val :=
  (plainDims wf).rhsIdx_val_of_single rfl j q
theorem rhs_axis1 (j : (⟨2, ![M, N]⟩ : Shape).Idx) (q : (plainDims wf).contr.Idx) :
    ((plainDims wf).rhsIdx j q 1).val = (j 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

/-- THE PRODUCT AT (p, q), into the zero accumulator: the sum over the contracted coordinate. -/
theorem matmul_zero_plain_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (plainDims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k := funext fun a => Fin.ext (by
    match a with
    | ⟨0, _⟩ => exact lhs_axis0 wf _ _
    | ⟨1, _⟩ => exact (lhs_axis1 wf _ _).trans hk)
  have er : (plainDims wf).rhsIdx (ix2 p q) ((contrEquiv1 (plainDims wf) K rfl rfl).symm k) = ix2 k q := funext fun a => Fin.ext (by
    match a with
    | ⟨0, _⟩ => exact (rhs_axis0 wf _ _).trans hk
    | ⟨1, _⟩ => exact rhs_axis1 wf _ _)
  rw [el, er]

end Cert.LibMatmulPlain

end
-- ==== Proof.LibSumBlocks.lean ====
/-
  A sum over a range of a * b consecutive numbers, cut into a consecutive blocks of b numbers each: in any commutative
  monoid the whole sum is the sum over the blocks of each block's sum, whatever function names the member k of block j,
  as long as that member is the number b * j + k. For four blocks the outer sum is written out as a chain of additions
  from the left, which is the order in which an accumulator that is updated once per block builds it.
-/
import Mathlib.Algebra.BigOperators.Fin
import Mathlib.Algebra.BigOperators.Group.Finset.Sigma
import Mathlib.Logic.Equiv.Fin.Basic

namespace Cert.LibSumBlocks

variable {M : Type*} [AddCommMonoid M]

/-- THE CUT: the sum over all n = a * b numbers is the double sum over block j and place k of the value at b * j + k. -/
theorem sum_blocks {a b n : ℕ} (hn : a * b = n) (f : Fin n → M) (g : Fin a → Fin b → Fin n)
    (hg : ∀ j k, (g j k).val = b * j.val + k.val) :
    ∑ k, f k = ∑ j, ∑ k', f (g j k') := by
  subst hn
  rw [← Fintype.sum_prod_type']
  refine (Fintype.sum_equiv finProdFinEquiv _ _ fun x => ?_).symm
  refine congrArg f (Fin.ext ?_)
  rw [hg, finProdFinEquiv_apply_val, Nat.add_comm]

/-- Four blocks, accumulated from the left starting at zero. -/
theorem sum_four_blocks {b n : ℕ} (hn : 4 * b = n) (f : Fin n → M) (g : Fin 4 → Fin b → Fin n)
    (hg : ∀ j k, (g j k).val = b * j.val + k.val) :
    ((((0 : M) + ∑ k, f (g 0 k)) + ∑ k, f (g 1 k)) + ∑ k, f (g 2 k)) + ∑ k, f (g 3 k) = ∑ k, f k := by
  rw [sum_blocks hn f g hg, Fin.sum_univ_four, zero_add]

end Cert.LibSumBlocks
-- ==== Proof.KernelChunk.lean ====
/-
  The kernel body's output block read at an index, over the extended reals.

  Row `r` of chunk `j` is row 128·j + r of the `x` block (`rowOf`). At column `o` the chunk's weight matrix holds
    wgt s o = exp (tanh (∑ k, x s k * w k o + bias o))                 (s the block row; a plain matrix product)
  so one chunk contributes ∑ r, wgt (rowOf j r) o * x (rowOf j r) o to the numerator and ∑ r, wgt (rowOf j r) o to the
  denominator (a column sum over the chunk's 128 rows). The running sums after chunk `n` are the sums of these
  contributions over chunks 0 … n (induction on `n`), and the 32 chunks cut the 4096 rows into consecutive blocks, so
  the totals are the sums over all rows. The output block at column `o` is the quotient of the two totals.
-/
import proofs.«129163_g85633057947969_feedfinal_228_23_alg».proof.Proof.KernelBody
import proofs.«129163_g85633057947969_feedfinal_228_23_alg».proof.Proof.LibMatmulPlain
import proofs.«129163_g85633057947969_feedfinal_228_23_alg».proof.Proof.LibSumBlocks
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Body

open Cert.KernelIdeal Cert.KernelIdeal.Gen

/-- Row `r` of chunk `j`, as a row of the 4096-row block. -/
def rowOf (j : Fin 32) (r : Fin 128) : Fin 4096 := ⟨128 * j.val + r.val, by have := j.isLt; have := r.isLt; omega⟩

/-- A chunk's row `r`, column `k`, is the block's row `off + r`, column `k`. -/
theorem rows_apply {F : FTy → Type} [FloatOps F] (off : ℕ) (h : S4096x1024.Slices ![off, 0] S128x1024)
    (x : Vec F S1x4096x1024 .f32) (r : Fin 128) (k : Fin 1024) (s : Fin 4096) (hs : s.val = off + r.val) :
    rows off h x (ix2 r k) = x (ix3 (0 : Fin 1) s k) :=
  (slice2_axis0_apply off _ h r k s hs).trans (shapeCast_1ab_ab_apply x _ s k)

variable (x0 : Vec Ideal S1x4096x1024 .f32) (x1 : Vec Ideal S1024x1024 .f32) (x2 : Vec Ideal S1x1024 .f32)

/-- The unnormalised softmax weight of block row `s` at column `o`. -/
def wgt (s : Fin 4096) (o : Fin 1024) : EReal :=
  Ideal.exp (Ideal.tanh ((∑ k : Fin 1024, x0 (ix3 (0 : Fin 1) s k) * x1 (ix2 k o)) + x2 (ix2 (0 : Fin 1) o)))

/-- The chunk's weight matrix at (r, o) is the weight of the block row it stands for. -/
theorem chunkExp_apply (off : ℕ) (h : S4096x1024.Slices ![off, 0] S128x1024) (r : Fin 128) (o : Fin 1024) (s : Fin 4096)
    (hs : s.val = off + r.val) : chunkExp off h x0 x1 x2 (ix2 r o) = wgt x0 x1 x2 s o := by
  unfold chunkExp wgt
  rw [shapeCast_self x1, shapeCast_self x2]
  show Ideal.exp (Ideal.tanh (FloatOps.matmul dot_S128x1024_S1024x1024_S128x1024_1_0_0_1_n_n none (rows off h x0) x1
      (constant S128x1024 .f32 0x00000000#32) (ix2 r o)
    + broadcastTo S128x1024 x2 broadcasts_S1x1024_S128x1024 (ix2 r o))) = _
  refine congrArg Ideal.exp (congrArg Ideal.tanh (congrArg₂ (· + ·) ?_ (broadcastTo_1b_ab_apply x2 _ r o)))
  refine (Cert.LibMatmulPlain.matmul_zero_plain_apply _ none (rows off h x0) x1 r o).trans ?_
  exact Finset.sum_congr rfl fun k _ => by rw [rows_apply off h x0 r k s hs]

/-- The reduced axis put back: coordinate `r` on axis 0 in front of the column index. -/
theorem lift_col (o : Fin 1024) (r : Fin 128) : reduces_S128x1024_S1024.lift (ix1 o) r = ix2 r o :=
  funext fun a => Fin.ext (by match a with | ⟨0, _⟩ => rfl | ⟨1, _⟩ => rfl)

/-- One chunk's contribution to the numerator at column `o`. -/
theorem chunkNum_apply (j : Fin 32) (o : Fin 1024) :
    chunkNum (128 * j.val) (chunk_slices j.val j.isLt) x0 x1 x2 (ix2 (0 : Fin 1) o)
      = ∑ r : Fin 128, wgt x0 x1 x2 (rowOf j r) o * x0 (ix3 (0 : Fin 1) (rowOf j r) o) := by
  unfold chunkNum
  refine (shapeCast_a_1a_apply _ _ (0 : Fin 1) o).trans ?_
  refine (Ideal.multiReduction_add_single _ 0x00000000#32 reduces_S128x1024_S1024 (.inl rfl) rfl (ix1 o)).trans ?_
  show ∑ r : Fin 128, _ = _
  refine Finset.sum_congr rfl fun r _ => ?_
  rw [lift_col o r]
  show chunkExp _ _ x0 x1 x2 (ix2 r o) * rows _ _ x0 (ix2 r o) = _
  rw [chunkExp_apply x0 x1 x2 _ _ r o (rowOf j r) rfl, rows_apply _ _ x0 r o (rowOf j r) rfl]

/-- One chunk's contribution to the denominator at column `o`. -/
theorem chunkDen_apply (j : Fin 32) (o : Fin 1024) :
    chunkDen (128 * j.val) (chunk_slices j.val j.isLt) x0 x1 x2 (ix2 (0 : Fin 1) o)
      = ∑ r : Fin 128, wgt x0 x1 x2 (rowOf j r) o := by
  unfold chunkDen
  refine (shapeCast_a_1a_apply _ _ (0 : Fin 1) o).trans ?_
  refine (Ideal.multiReduction_add_single _ 0x00000000#32 reduces_S128x1024_S1024 (.inl rfl) rfl (ix1 o)).trans ?_
  show ∑ r : Fin 128, _ = _
  refine Finset.sum_congr rfl fun r _ => ?_
  rw [lift_col o r]
  exact chunkExp_apply x0 x1 x2 _ _ r o (rowOf j r) rfl

/-- Chunk `j`'s numerator contribution as a function of a natural number (zero past the last chunk). -/
def numChunk (o : Fin 1024) (j : ℕ) : EReal :=
  if h : j < 32 then ∑ r : Fin 128, wgt x0 x1 x2 (rowOf ⟨j, h⟩ r) o * x0 (ix3 (0 : Fin 1) (rowOf ⟨j, h⟩ r) o) else 0

/-- Chunk `j`'s denominator contribution as a function of a natural number (zero past the last chunk). -/
def denChunk (o : Fin 1024) (j : ℕ) : EReal :=
  if h : j < 32 then ∑ r : Fin 128, wgt x0 x1 x2 (rowOf ⟨j, h⟩ r) o else 0

/-- The running numerator after chunk `n` is the sum of the contributions of chunks 0 … n. -/
theorem numUpTo_apply (o : Fin 1024) : ∀ (n : ℕ) (h : n < 32),
    numUpTo x0 x1 x2 n h (ix2 (0 : Fin 1) o) = ∑ j ∈ Finset.range (n + 1), numChunk x0 x1 x2 o j
  | 0, h => by
    rw [Finset.sum_range_one, show numChunk x0 x1 x2 o 0 = _ from dif_pos h]
    exact chunkNum_apply x0 x1 x2 ⟨0, h⟩ o
  | n + 1, h => by
    rw [Finset.sum_range_succ, ← numUpTo_apply o n (Nat.lt_of_succ_lt h), show numChunk x0 x1 x2 o (n + 1) = _ from dif_pos h,
      numUpTo]
    exact congrArg (_ + ·) (chunkNum_apply x0 x1 x2 ⟨n + 1, h⟩ o)

/-- The running denominator after chunk `n` is the sum of the contributions of chunks 0 … n. -/
theorem denUpTo_apply (o : Fin 1024) : ∀ (n : ℕ) (h : n < 32),
    denUpTo x0 x1 x2 n h (ix2 (0 : Fin 1) o) = ∑ j ∈ Finset.range (n + 1), denChunk x0 x1 x2 o j
  | 0, h => by
    rw [Finset.sum_range_one, show denChunk x0 x1 x2 o 0 = _ from dif_pos h]
    exact chunkDen_apply x0 x1 x2 ⟨0, h⟩ o
  | n + 1, h => by
    rw [Finset.sum_range_succ, ← denUpTo_apply o n (Nat.lt_of_succ_lt h), show denChunk x0 x1 x2 o (n + 1) = _ from dif_pos h,
      denUpTo]
    exact congrArg (_ + ·) (chunkDen_apply x0 x1 x2 ⟨n + 1, h⟩ o)

/-- All 32 chunks: the numerator is the sum over all 4096 block rows. -/
theorem num_total (o : Fin 1024) (h : 31 < 32) :
    numUpTo x0 x1 x2 31 h (ix2 (0 : Fin 1) o) = ∑ s : Fin 4096, wgt x0 x1 x2 s o * x0 (ix3 (0 : Fin 1) s o) := by
  rw [numUpTo_apply, Cert.LibSumBlocks.sum_blocks (a := 32) (b := 128) rfl
    (fun s => wgt x0 x1 x2 s o * x0 (ix3 (0 : Fin 1) s o)) rowOf (fun j k => rfl)]
  show ∑ j ∈ Finset.range 32, numChunk x0 x1 x2 o j = _
  rw [← Fin.sum_univ_eq_sum_range (fun j => numChunk x0 x1 x2 o j) 32]
  exact Finset.sum_congr rfl fun j _ => dif_pos j.isLt

/-- All 32 chunks: the denominator is the sum over all 4096 block rows. -/
theorem den_total (o : Fin 1024) (h : 31 < 32) :
    denUpTo x0 x1 x2 31 h (ix2 (0 : Fin 1) o) = ∑ s : Fin 4096, wgt x0 x1 x2 s o := by
  rw [denUpTo_apply, Cert.LibSumBlocks.sum_blocks (a := 32) (b := 128) rfl
    (fun s => wgt x0 x1 x2 s o) rowOf (fun j k => rfl)]
  show ∑ j ∈ Finset.range 32, denChunk x0 x1 x2 o j = _
  rw [← Fin.sum_univ_eq_sum_range (fun j => denChunk x0 x1 x2 o j) 32]
  exact Finset.sum_congr rfl fun j _ => dif_pos j.isLt

/-- THE OUTPUT BLOCK at column `o`: the weighted sum of the block's rows over the sum of the weights. -/
theorem body_apply (o : Fin 1024) :
    body x0 x1 x2 (ix3 (0 : Fin 1) (0 : Fin 1) o)
      = Ideal.div (∑ s : Fin 4096, wgt x0 x1 x2 s o * x0 (ix3 (0 : Fin 1) s o)) (∑ s : Fin 4096, wgt x0 x1 x2 s o) := by
  unfold body
  refine (shapeCast_ab_1ab_apply _ _ (0 : Fin 1) (0 : Fin 1) o).trans ?_
  rw [shapeCast_self, shapeCast_self]
  show Ideal.div (numUpTo x0 x1 x2 31 _ (ix2 (0 : Fin 1) o)) (denUpTo x0 x1 x2 31 _ (ix2 (0 : Fin 1) o)) = _
  rw [num_total, den_total]

end Cert.KernelIdeal.Body

end
-- ==== Proof.KernelArray.lean ====
/-
  From the kernel's blocks to its result array, over the extended reals.

  The grid has 16 points, one per batch row `b`. At point `b` the body sees: the `x` block, which is rows (b, ·, ·) of the
  input array; the whole transposed weight matrix, whose entry (k, o) is W (o, k) (a host transpose before the region);
  and the bias as a [1, 1024] row (a host reshape). It writes back the output block (b, 0, ·). By the body's value at an
  index (KernelChunk.lean) that block holds, at column `o`, `pooled b o` of the three argument arrays; the 16 blocks tile
  the [16, 1, 1024] result of the region, and the host reshape after the region drops its unit axis.
-/
import proofs.«129163_g85633057947969_feedfinal_228_23_alg».proof.Proof.Spec
import proofs.«129163_g85633057947969_feedfinal_228_23_alg».proof.Proof.KernelChunk
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Pool

open Cert.KernelIdeal Cert.KernelIdeal.Gen Cert.AttnPool

variable (m : (ℓ : Loc nD τ sig) → Buf (Elt Ideal) ℓ) (ρ : Dev nD → PrngReg)

/-! ## The blocks the body sees at a point -/

/-- The `x` block of point `t`. -/
abbrev xblk (c : Dev nD) (t : Fin cfg0.N) : Vec Ideal S1x4096x1024 .f32 := iblk m c 0 t
/-- The transposed weight matrix as the body sees it (the same block at every point). -/
abbrev wblk (c : Dev nD) (t : Fin cfg0.N) : Vec Ideal S1024x1024 .f32 := iblk m c 1 t
/-- The bias row as the body sees it (the same block at every point). -/
abbrev bblk (c : Dev nD) (t : Fin cfg0.N) : Vec Ideal S1x1024 .f32 := iblk m c 2 t

/-- The printed index maps over the grid: the `x` and output windows move along axis 0 with the point, everything else
    stays at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The transposed weight matrix the region finds: entry (k, o) is W (o, k). -/
theorem V_wt (c : Dev nD) : (V m c main_v0 : S1024x1024.Idx → EReal)
    = transpose S1024x1024 [1, 0] (m ((c : Thread nD τ).loc main_arg1)) transposes_S1024x1024_S1024x1024_1_0 := by
  show StableHlo.after hostOps0 (fun b => m (c, b)) (Proc.devRef .tc main_v0) = _
  after_results

/-- The bias row the region finds: the bias vector under a leading unit axis. -/
theorem V_bias (c : Dev nD) : (V m c main_v1 : S1x1024.Idx → EReal)
    = shapeCast S1x1024 (m ((c : Thread nD τ).loc main_arg2)) shapeCasts_S1024_S1x1024 := by
  show StableHlo.after hostOps0 (fun b => m (c, b)) (Proc.devRef .tc main_v1) = _
  after_results
  rfl

/-- The `x` block of point `t` at (0, s, k) is the input array at (t, s, k). -/
theorem xblk_apply (c : Dev nD) (t : Fin cfg0.N) (s : Fin 4096) (k : Fin 1024) (b : Fin 16) (hb : b.val = t.val) :
    xblk m c t (ix3 (0 : Fin 1) s k) = m ((c : Thread nD τ).loc main_arg0) (ix3 b s k) := by
  show iblk m c 0 t (ix3 (0 : Fin 1) s k) = _
  unfold iblk
  rw [View.read_apply]
  show V m c main_arg0 _ = _
  rw [V_main_arg0]
  refine congrArg _ (funext fun a => Fin.ext ?_)
  obtain ⟨e0, e1, e2, -⟩ := idx_facts t
  match a with
  | ⟨0, _⟩ => show win0_0.index t (0 : Fin 3) * 1 + 1 * 0 = b.val; omega
  | ⟨1, _⟩ => show win0_0.index t (1 : Fin 3) * 4096 + 1 * s.val = s.val; omega
  | ⟨2, _⟩ => show win0_0.index t (2 : Fin 3) * 1024 + 1 * k.val = k.val; omega

/-- The weight block at (k, o) is W (o, k). -/
theorem wblk_apply (c : Dev nD) (t : Fin cfg0.N) (k o : Fin 1024) :
    wblk m c t (ix2 k o) = m ((c : Thread nD τ).loc main_arg1) (ix2 o k) := by
  show iblk m c 1 t (ix2 k o) = _
  unfold iblk
  rw [View.read_apply]
  show V m c main_v0 _ = _
  rw [V_wt]
  refine Eq.trans (congrArg _ (funext fun a => Fin.ext ?_)) (transpose_ix2_apply _ _ k o)
  obtain ⟨-, -, -, e0, e1, -⟩ := idx_facts t
  match a with
  | ⟨0, _⟩ => show win0_1.index t (0 : Fin 2) * 1024 + 1 * k.val = k.val; omega
  | ⟨1, _⟩ => show win0_1.index t (1 : Fin 2) * 1024 + 1 * o.val = o.val; omega

/-- The bias block at (0, o) is the bias at o. -/
theorem bblk_apply (c : Dev nD) (t : Fin cfg0.N) (o : Fin 1024) :
    bblk m c t (ix2 (0 : Fin 1) o) = m ((c : Thread nD τ).loc main_arg2) (ix1 o) := by
  show iblk m c 2 t (ix2 (0 : Fin 1) o) = _
  unfold iblk
  rw [View.read_apply]
  show V m c main_v1 _ = _
  rw [V_bias]
  refine Eq.trans (congrArg _ (funext fun a => Fin.ext ?_)) (shapeCast_a_1a_apply _ _ (0 : Fin 1) o)
  obtain ⟨-, -, -, -, -, e0, e1, -⟩ := idx_facts t
  match a with
  | ⟨0, _⟩ => show win0_2.index t (0 : Fin 2) * 1 + 1 * 0 = 0; omega
  | ⟨1, _⟩ => show win0_2.index t (1 : Fin 2) * 1024 + 1 * o.val = o.val; omega

/-! ## What a point writes back -/

/-- The three argument arrays as functions of coordinates. -/
abbrev X (c : Dev nD) : Fin 16 → Fin 4096 → Fin 1024 → EReal := cur3 (m ((c : Thread nD τ).loc main_arg0))
abbrev W (c : Dev nD) : Fin 1024 → Fin 1024 → EReal := cur2 (m ((c : Thread nD τ).loc main_arg1))
abbrev β (c : Dev nD) : Fin 1024 → EReal := cur1 (m ((c : Thread nD τ).loc main_arg2))

/-- The weight the body forms for block row `s`, column `o`, at the point of batch row `b`, is the specification's. -/
theorem wgt_eq (c : Dev nD) (t : Fin cfg0.N) (b : Fin 16) (hb : b.val = t.val) (s : Fin 4096) (o : Fin 1024) :
    Body.wgt (xblk m c t) (wblk m c t) (bblk m c t) s o = weight (X m c) (W m c) (β m c) b s o := by
  unfold Body.wgt weight energy
  rw [bblk_apply m c t o]
  refine congrArg Ideal.exp (congrArg Ideal.tanh (congrArg (· + _) (Finset.sum_congr rfl fun k _ => ?_)))
  rw [xblk_apply m c t s k b hb, wblk_apply m c t k o]
  rfl

/-- After the body at point `t` the output's staging buffer holds the body's function of the point's blocks. -/
theorem outsAt_eq (c : Dev nD) (t : Fin cfg0.N) :
    outsAt0 m c t = Body.body (xblk m c t) (wblk m c t) (bblk m c t) :=
  Body.out_eq c (grid0.coords t) (ms0_0 t) (hs0_0 t) (ms0_1 t) (hs0_1 t) (ms0_2 t) (hs0_2 t) (ms0_3 t) (hs0_3 t)
    scM0_0 (Memref.isWhole_whole _) scM0_1 (Memref.isWhole_whole _) (hcond0_0 t) (hcond0_1 t) (hcond0_2 t)
    (iblk m c 0 t) (iblk m c 1 t) (iblk m c 2 t)

/-- The region's result array: `pooled b o` at (b, 0, o). -/
def G3 (c : Dev nD) : S16x1x1024.Idx → EReal := fun i => pooled (X m c) (W m c) (β m c) (i 0) (i 2)

/-- WHAT POINT `t` WRITES BACK is block `t` of `G3`. -/
theorem flushed_eq (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3, outsAt_eq]
  have hN : cfg0.N = 16 := N_0
  funext j
  obtain ⟨u, v, o, rfl⟩ : ∃ (u : Fin 1) (v : Fin 1) (o : Fin 1024), j = ix3 u v o := ⟨j 0, j 1, j 2, eq_ix3 j⟩
  obtain rfl : u = 0 := Subsingleton.elim _ _
  obtain rfl : v = 0 := Subsingleton.elim _ _
  show Body.body (xblk m c t) (wblk m c t) (bblk m c t) (ix3 (0 : Fin 1) (0 : Fin 1) o)
    = G3 m c (((cfg0.win 3).blk t).view.emb (ix3 (0 : Fin 1) (0 : Fin 1) o))
  rw [Body.body_apply]
  obtain ⟨-, -, -, -, -, -, -, e0, e1, e2⟩ := idx_facts t
  have hemb : ((cfg0.win 3).blk t).view.emb (ix3 (0 : Fin 1) (0 : Fin 1) o) = ix3 (⟨t.val, by omega⟩ : Fin 16) (0 : Fin 1) o :=
    funext fun a => Fin.ext (by
      match a with
      | ⟨0, _⟩ => show win0_3.index t (0 : Fin 3) * 1 + 1 * 0 = t.val; omega
      | ⟨1, _⟩ => show win0_3.index t (1 : Fin 3) * 1 + 1 * 0 = 0; omega
      | ⟨2, _⟩ => show win0_3.index t (2 : Fin 3) * 1024 + 1 * o.val = o.val; omega)
  rw [hemb]
  show _ = pooled (X m c) (W m c) (β m c) (⟨t.val, by omega⟩ : Fin 16) o
  unfold pooled
  refine congrArg₂ Ideal.div (Finset.sum_congr rfl fun s _ => ?_) (Finset.sum_congr rfl fun s _ => ?_)
  · rw [wgt_eq m c t ⟨t.val, by omega⟩ rfl s o, xblk_apply m c t s o ⟨t.val, by omega⟩ rfl]; rfl
  · exact wgt_eq m c t ⟨t.val, by omega⟩ rfl s o

/-- An index of the region's result is in point `t`'s block iff each coordinate is in the block's range. -/
theorem mem_blk (t : Fin cfg0.N) (i : S16x1x1024.Idx) :
    i ∈ ((cfg0.win 3).blk t).view.set ↔ ∀ a : Fin 3, win0_3.index t a * S1x1x1024.size a ≤ (i a).val
      ∧ (i a).val < win0_3.index t a * S1x1x1024.size a + S1x1x1024.size a := by
  show i ∈ ((View.whole main_v2).slice (win0_3.rect t)).set ↔ _
  rw [View.set_slice_whole, Rect.mem_set_unit]
  exact Iff.rfl

/-- THE REGION'S RESULT after the run: the 16 row blocks tile it, so it is `G3` everywhere. -/
theorem final (c : Dev nD) : (dats m 0 c).arrAt 3 cfg0.N = G3 m c :=
  (dats m 0 c).arrAt_eq_of_cover 3 (G3 m c) (fun t _ => flushed_eq m c t) fun i => by
    have hN : cfg0.N = 16 := N_0
    have h0 : (i 0).val < 16 := (i 0).isLt
    have h1 : (i 1).val < 1 := (i 1).isLt
    have h2 : (i 2).val < 1024 := (i 2).isLt
    obtain ⟨t, ht⟩ : ∃ t : Fin cfg0.N, t.val = (i 0).val := ⟨⟨(i 0).val, by omega⟩, rfl⟩
    refine ⟨t, flush0_3 t, ?_⟩
    rw [mem_blk]
    obtain ⟨-, -, -, -, -, -, -, e0, e1, e2⟩ := idx_facts t
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1 ≤ (i 1).val ∧ (i 1).val < win0_3.index t (1 : Fin 3) * 1 + 1; omega
    | ⟨2, _⟩ => show win0_3.index t (2 : Fin 3) * 1024 ≤ (i 2).val ∧ (i 2).val < win0_3.index t (2 : Fin 3) * 1024 + 1024; omega

/-! ## The program's result -/

/-- The reshape after the region leaves, in the program's result, the region's result without its unit axis:
    `pooledArr` of the three argument arrays. -/
theorem result_eq (c : Dev nD) :
    Pipeline.afterTail₀ cfgs (dats m) 0 (V0 m) [hostOps1] c main_v3
      = pooledArr (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = G3 m c := (Pipeline.withArrays_arr spec0 launch0.win.arr_inj c _ _ 3).trans (final m c)
  funext i
  show shapeCast S16x1024 (Pipeline.withArrays (cfgs 0).spec c (V0 m c) (fun w => (dats m 0 c).arrAt w (cfgs 0).N)
    (Proc.devRef .tc main_v2)) shapeCasts_S16x1x1024_S16x1024 i = _
  rw [hw]
  obtain ⟨b, o, rfl⟩ : ∃ (b : Fin 16) (o : Fin 1024), i = ix2 b o := ⟨i 0, i 1, eq_ix2 i⟩
  refine (shapeCast_apply (G3 m c) shapeCasts_S16x1x1024_S16x1024 (ix2 b o) (ix3 b (0 : Fin 1) o) (by
    rw [Shape.rowMajor_val_three, Shape.rowMajor_val_two]
    show (b.val * 1 + 0) * 1024 + o.val = b.val * 1024 + o.val
    omega)).trans ?_
  rfl

/-- THE RUN, READ: the program ends with `pooledArr` of its arguments in its result and the arguments unchanged. -/
theorem run : θ_run defs (onTc (τ := τ) (main (F := Ideal))) ⟨m, fun _ => 0, ρ⟩ fun r => ∀ c : Dev nD,
      r.2.mem ((c : Thread nD τ).loc main_v3)
        = pooledArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Pool

end
-- ==== Proof.lean ====
/-
  The certificate of the attention-pooling kernel against its jnp reference, over the extended reals.

  Both programs take an input X [16, 4096, 1024], a weight matrix W [1024, 1024] and a bias β [1024] and return a
  [16, 1024] array. With  energy b s o = tanh (∑ k, X b s k * W o k + β o)  and  weight = exp ∘ energy:
    the kernel streams the sequence axis once, in 32 chunks of 128 rows per batch row, accumulating the two sums
      ∑ s, weight b s o * X b s o   and   ∑ s, weight b s o ,  and returns their quotient (`pooled`);
    the reference forms the softmax of the energies over the sequence axis the stable way (it subtracts the column
      maximum before the exponential and normalises each weight), multiplies by X and sums (`softmaxPooled`).
  The two are equal for finite inputs: the shift is then a real number μ, exp (e − μ) = exp e · exp (−μ) with the factor
  exp (−μ) cancelling in each quotient, and a division by the (positive, real) sum of weights distributes over the sum.
  Finiteness is needed twice: the cancellation and the distributivity fail at the infinities of the extended reals.

  The frames of the two kernel programs are the generated ones; the reference has no kernel, and its frame is its run
  with the result dropped. The idealisation rewrote nothing, so `preserves` is trivial.
-/
import proofs.«129163_g85633057947969_feedfinal_228_23_alg».proof.Defs
import proofs.«129163_g85633057947969_feedfinal_228_23_alg».proof.Proof.Gen.Kernel
import proofs.«129163_g85633057947969_feedfinal_228_23_alg».proof.Proof.Gen.Kernel.Frame
import proofs.«129163_g85633057947969_feedfinal_228_23_alg».proof.Proof.Gen.KernelIdeal
import proofs.«129163_g85633057947969_feedfinal_228_23_alg».proof.Proof.Gen.KernelIdeal.Frame
import proofs.«129163_g85633057947969_feedfinal_228_23_alg».proof.Proof.Gen.ReferenceIdeal
import proofs.«129163_g85633057947969_feedfinal_228_23_alg».proof.Proof.Gen.ReferenceIdeal.Run
import proofs.«129163_g85633057947969_feedfinal_228_23_alg».proof.Proof.Gen.ReferenceIdeal.Read
import proofs.«129163_g85633057947969_feedfinal_228_23_alg».proof.Proof.Gen.Pre_finite_inputs
import proofs.«129163_g85633057947969_feedfinal_228_23_alg».proof.Proof.Spec
import proofs.«129163_g85633057947969_feedfinal_228_23_alg».proof.Proof.PoolLaw
import proofs.«129163_g85633057947969_feedfinal_228_23_alg».proof.Proof.Finite
import proofs.«129163_g85633057947969_feedfinal_228_23_alg».proof.Proof.RefValue
import proofs.«129163_g85633057947969_feedfinal_228_23_alg».proof.Proof.KernelArray
import Idealize.ShloMosaic.Adequacy
import Idealize.ShloMosaic.Init

noncomputable section

namespace Cert.Proof

open Idealize.ShloMosaic Idealize.ShloMosaic.TcCoe Idealize.SL.Sem Idealize.ShloMosaic.ValueIdx Cert.AttnPool

/-- For real argument arrays the reference's result array is `pooledArr` of them: its shifted-softmax average at each
    (b, o), with the real shift cancelled. -/
theorem reference_eq (x0 : (⟨3, ![16, 4096, 1024]⟩ : Shape).Idx → EReal) (x1 : (⟨2, ![1024, 1024]⟩ : Shape).Idx → EReal)
    (x2 : (⟨1, ![1024]⟩ : Shape).Idx → EReal)
    (h0 : ∀ i, IsReal (x0 i)) (h1 : ∀ i, IsReal (x1 i)) (h2 : ∀ i, IsReal (x2 i)) :
    Cert.ReferenceIdeal.Read.val_main_v17 (F := Ideal) x0 x1 x2 = pooledArr x0 x1 x2 := by
  funext i
  obtain ⟨b, o, rfl⟩ : ∃ (b : Fin 16) (o : Fin 1024), i = ix2 b o := ⟨i 0, i 1, eq_ix2 i⟩
  rw [Cert.ReferenceIdeal.RefValue.result_apply]
  exact softmaxPooled_eq (cur3 x0) (cur2 x1) (cur1 x2) (fun b s k => h0 _) (fun o k => h1 _) (fun o => h2 _) _
    (Cert.ReferenceIdeal.RefValue.shift_real x0 x1 x2 h0 h1 h2) b o

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealised programs end with `pooledArr` of the (common, finite) argument arrays in their results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => pooledArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Pool.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2⟩ := Cert.Pre_finite_inputs.Finite.real_of_pre _ _ _ (hpre c)
  rw [(hagree c).1, (hagree c).2.1, (hagree c).2.2, Cert.ReferenceIdeal.Read.val_main_v17_eq]
  exact reference_eq _ _ _ r0 r1 r2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
